-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel

variable [Facts]

def fn {F : FTy → Type} [FloatOps F] (main_arg0 : FVec F S4096x10000 .f32) (main_arg1 : FVec F S4096x10000 .f32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_v4 : FVec F S4096x10000 .f32 := Host.absf main_arg1
  let main_cst_0 : FVec F S_ .f32 := constant S_ .f32 0x7F800000#32
  let main_v5 : FVec F S4096x10000 .f32 := broadcastInDim S4096x10000 ![] bcast_S_S4096x10000 main_cst_0
  let main_v6 : IVec S4096x10000 1 := cmpf .olt main_v4 main_v5
  let main_c_1 : IVec S_ 1 := constantI S_ 1 1#1
  let main_v7 : IVec S_ 1 := (fun x v => Host.reduce IntOp.andi x v reducesTo_S4096x10000_S_d0_1 h_S_) main_v6 main_c_1
  let main_v8 : IVec S_ 1 := andi main_v3 main_v7
  main_v8
-- ==== Kernel.lean ====
abbrev S4096x10000 : Shape := ⟨2, ![4096, 10000]⟩
abbrev S4096x2000x5 : Shape := ⟨3, ![4096, 2000, 5]⟩
abbrev S1x2000 : Shape := ⟨2, ![1, 2000]⟩
abbrev S2000 : Shape := ⟨1, ![2000]⟩
abbrev S_ : Shape := ⟨0, ![]⟩
abbrev S8x2000x5 : Shape := ⟨3, ![8, 2000, 5]⟩
abbrev S8x2000x1 : Shape := ⟨3, ![8, 2000, 1]⟩
abbrev S8x2000 : Shape := ⟨2, ![8, 2000]⟩

abbrev nBuf : Space → Nat
  | .hbm => 23
  | .vmem => 7
  | .smem => 0
  | _ => 0

abbrev bufTy : (tb : Table) → Fin (tcTables nBuf tb) → BufTy
  | .hbm, ⟨0, _⟩ => ⟨S4096x10000, .f32⟩
  | .hbm, ⟨1, _⟩ => ⟨S4096x10000, .f32⟩
  | .hbm, ⟨2, _⟩ => ⟨S4096x2000x5, .f32⟩
  | .hbm, ⟨3, _⟩ => ⟨S4096x2000x5, .f32⟩
  | .hbm, ⟨4, _⟩ => ⟨S1x2000, .f32⟩
  | .hbm, ⟨5, _⟩ => ⟨S1x2000, .f32⟩
  | .hbm, ⟨6, _⟩ => ⟨S1x2000, .f32⟩
  | .hbm, ⟨7, _⟩ => ⟨S2000, .f32⟩
  | .hbm, ⟨8, _⟩ => ⟨S2000, .f32⟩
  | .hbm, ⟨9, _⟩ => ⟨S_, .f32⟩
  | .hbm, ⟨10, _⟩ => ⟨S2000, .f32⟩
  | .hbm, ⟨11, _⟩ => ⟨S2000, .f32⟩
  | .hbm, ⟨12, _⟩ => ⟨S2000, .f32⟩
  | .hbm, ⟨13, _⟩ => ⟨S2000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8x2000x5, .f32⟩
  | .local _ .vmem, ⟨1, _⟩ => ⟨S8x2000x5, .f32⟩
  | .local _ .vmem, ⟨2, _⟩ => ⟨S8x2000x5, .f32⟩
  | .local _ .vmem, ⟨3, _⟩ => ⟨S8x2000x5, .f32⟩
  | .local _ .vmem, ⟨4, _⟩ => ⟨S1x2000, .f32⟩
  | .local _ .vmem, ⟨5, _⟩ => ⟨S1x2000, .f32⟩
  | .local _ .vmem, ⟨6, _⟩ => ⟨S1x2000, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v2_2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_cst_0 : Ref sig .tc := ⟨.hbm, 14, rfl⟩
abbrev main_call0_v9 : Ref sig .tc := ⟨.hbm, 15, rfl⟩
abbrev main_call0_cst_1 : Ref sig .tc := ⟨.hbm, 16, rfl⟩
abbrev main_call0_v10 : Ref sig .tc := ⟨.hbm, 17, rfl⟩
abbrev main_call0_cst_2 : Ref sig .tc := ⟨.hbm, 18, rfl⟩
abbrev main_call0_v11 : Ref sig .tc := ⟨.hbm, 19, rfl⟩
abbrev main_call0_cst_3 : Ref sig .tc := ⟨.hbm, 20, rfl⟩
abbrev main_call0_v12 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S4096x10000_S4096x2000x5 : S4096x10000.ShapeCasts S4096x2000x5
  shapeCasts_S1x2000_S2000 : S1x2000.ShapeCasts S2000
  bcast_S_S2000 : S_.BroadcastsInDim S2000 (![] : Fin 0 → Fin S2000.rank)
  reducesTo_S2000_S_d0 : S2000.ReducesTo [0] S_
  h_S_ : 0 < S_.numel
  inb_S1x2000_S1x2000_0_0 : ∀ a, (![0, 0] : Fin 2 → Nat) a + S1x2000.size a ≤ S1x2000.size a
  h_S1x2000 : 0 < S1x2000.numel
  inb_S8x2000x5_S8x2000x5_0_0_0 : ∀ a, (![0, 0, 0] : Fin 3 → Nat) a + S8x2000x5.size a ≤ S8x2000x5.size a
  h_S8x2000x5 : 0 < S8x2000x5.numel
  shapeCasts_S8x2000x5_S8x2000x5 : S8x2000x5.ShapeCasts S8x2000x5
  slices_S8x2000x5_o0_0_0_S8x2000x1 : S8x2000x5.Slices ![0, 0, 0] S8x2000x1
  shapeCasts_S8x2000x1_S8x2000 : S8x2000x1.ShapeCasts S8x2000
  natLt_1_32 : 1 < 32
  slices_S8x2000x5_o0_0_1_S8x2000x1 : S8x2000x5.Slices ![0, 0, 1] S8x2000x1
  slices_S8x2000x5_o0_0_2_S8x2000x1 : S8x2000x5.Slices ![0, 0, 2] S8x2000x1
  slices_S8x2000x5_o0_0_3_S8x2000x1 : S8x2000x5.Slices ![0, 0, 3] S8x2000x1
  slices_S8x2000x5_o0_0_4_S8x2000x1 : S8x2000x5.Slices ![0, 0, 4] S8x2000x1
  reduces_S8x2000_S2000 : S8x2000.Reduces [0] S2000
  shapeCasts_S2000_S1x2000 : S2000.ShapeCasts S1x2000
  shapeCasts_S1x2000_S1x2000 : S1x2000.ShapeCasts S1x2000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2000x5.size a ≤ S4096x2000x5.size a
  hwx0_0 : ∀ i : grid0.Coords, EltTy.bits .f32 = 32 ∨ (Rect.block (s := S4096x2000x5) S8x2000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2000x5.size a ≤ S4096x2000x5.size a
  hwx0_1 : ∀ i : grid0.Coords, EltTy.bits .f32 = 32 ∨ (Rect.block (s := S4096x2000x5) S8x2000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2000.size a ≤ S1x2000.size a
  hwx0_3 : ∀ i : grid0.Coords, EltTy.bits .f32 = 32 ∨ (Rect.block (s := S1x2000) S1x2000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2000.size a ≤ S1x2000.size a
  hwx0_4 : ∀ i : grid0.Coords, EltTy.bits .f32 = 32 ∨ (Rect.block (s := S1x2000) S1x2000.size (cc0_transform_4 i) (hinb0_4 i)).WholeWords (EltTy.packing .f32)

variable [Facts₀]

abbrev win0_0 : Pipeline.Window sig grid0 :=
  Pipeline.Window.ofSpec (Memref.whole main_call0_v0) S8x2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S8x2000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S1x2000.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S1x2000.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_2) S1x2000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S4096x2000x5 : Shape := ⟨3, ![4096, 2000, 5]⟩
abbrev S4096x2000x1 : Shape := ⟨3, ![4096, 2000, 1]⟩
abbrev S4096x2000 : Shape := ⟨2, ![4096, 2000]⟩
abbrev S_ : Shape := ⟨0, ![]⟩
abbrev S4096x2000x4 : Shape := ⟨3, ![4096, 2000, 4]⟩
abbrev S2000 : Shape := ⟨1, ![2000]⟩

abbrev nBuf : Space → Nat
  | .hbm => 49
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S4096x10000, .f32⟩
  | .hbm, ⟨2, _⟩ => ⟨S4096x2000x5, .f32⟩
  | .hbm, ⟨3, _⟩ => ⟨S4096x2000x5, .f32⟩
  | .hbm, ⟨4, _⟩ => ⟨S4096x2000x1, .f32⟩
  | .hbm, ⟨5, _⟩ => ⟨S4096x2000, .f32⟩
  | .hbm, ⟨6, _⟩ => ⟨S4096x2000x1, .f32⟩
  | .hbm, ⟨7, _⟩ => ⟨S4096x2000, .f32⟩
  | .hbm, ⟨8, _⟩ => ⟨S_, .f32⟩
  | .hbm, ⟨9, _⟩ => ⟨S4096x2000, .f32⟩
  | .hbm, ⟨10, _⟩ => ⟨S4096x2000, .i1⟩
  | .hbm, ⟨11, _⟩ => ⟨S4096x2000, .f32⟩
  | .hbm, ⟨12, _⟩ => ⟨S4096x2000, .f32⟩
  | .hbm, ⟨13, _⟩ => ⟨S4096x2000, .f32⟩
  | .hbm, ⟨14, _⟩ => ⟨S_, .f32⟩
  | .hbm, ⟨15, _⟩ => ⟨S4096x2000, .f32⟩
  | .hbm, ⟨16, _⟩ => ⟨S4096x2000, .f32⟩
  | .hbm, ⟨17, _⟩ => ⟨S_, .f32⟩
  | .hbm, ⟨18, _⟩ => ⟨S4096x2000, .f32⟩
  | .hbm, ⟨19, _⟩ => ⟨S4096x2000, .f32⟩
  | .hbm, ⟨20, _⟩ => ⟨S4096x2000, .f32⟩
  | .hbm, ⟨21, _⟩ => ⟨S4096x2000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x2000x4, .f32⟩
  | .hbm, ⟨27, _⟩ => ⟨S4096x2000x4, .f32⟩
  | .hbm, ⟨28, _⟩ => ⟨S4096x2000x4, .f32⟩
  | .hbm, ⟨29, _⟩ => ⟨S4096x2000x4, .f32⟩
  | .hbm, ⟨30, _⟩ => ⟨S_, .f32⟩
  | .hbm, ⟨31, _⟩ => ⟨S4096x2000, .f32⟩
  | .hbm, ⟨32, _⟩ => ⟨S_, .f32⟩
  | .hbm, ⟨33, _⟩ => ⟨S4096x2000, .f32⟩
  | .hbm, ⟨34, _⟩ => ⟨S4096x2000, .f32⟩
  | .hbm, ⟨35, _⟩ => ⟨S4096x2000, .f32⟩
  | .hbm, ⟨36, _⟩ => ⟨S_, .f32⟩
  | .hbm, ⟨37, _⟩ => ⟨S2000, .f32⟩
  | .hbm, ⟨38, _⟩ => ⟨S_, .f32⟩
  | .hbm, ⟨39, _⟩ => ⟨S2000, .f32⟩
  | .hbm, ⟨40, _⟩ => ⟨S_, .f32⟩
  | .hbm, ⟨41, _⟩ => ⟨S2000, .f32⟩
  | .hbm, ⟨42, _⟩ => ⟨S2000, .f32⟩
  | .hbm, ⟨43, _⟩ => ⟨S2000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  shapeCasts_S4096x10000_S4096x2000x5 : S4096x10000.ShapeCasts S4096x2000x5
  slices_S4096x2000x5_S4096x2000x1_0_0_0 : S4096x2000x5.Slices ![0, 0, 0] S4096x2000x1
  shapeCasts_S4096x2000x1_S4096x2000 : S4096x2000x1.ShapeCasts S4096x2000
  bcast_S_S4096x2000 : S_.BroadcastsInDim S4096x2000 (![] : Fin 0 → Fin S4096x2000.rank)
  reducesTo_S4096x2000_S_d0_1 : S4096x2000.ReducesTo [0, 1] S_
  h_S_ : 0 < S_.numel
  slices_S4096x2000x5_S4096x2000x4_0_0_1 : S4096x2000x5.Slices ![0, 0, 1] S4096x2000x4
  reducesTo_S4096x2000x4_S4096x2000_d2 : S4096x2000x4.ReducesTo [2] S4096x2000
  reducesTo_S4096x2000_S2000_d0 : S4096x2000.ReducesTo [0] S2000
  bcast_S_S2000 : S_.BroadcastsInDim S2000 (![] : Fin 0 → Fin S2000.rank)
  reducesTo_S2000_S_d0 : S2000.ReducesTo [0] S_

variable [Facts₀]

class Facts : Prop extends Facts₀ where

variable [Facts]
-- ==== Proof.LossSpec.lean ====
/-
  The anchor loss over the extended reals, stated once for both programs.

  An anchor is five numbers of the prediction and five of the target. Channel 0 carries the class: the target
  class is 1 where the target's channel 0 is above zero and 0 elsewhere, the class error is the square of the
  logistic of the predicted channel 0 minus that 0/1 target. Channels 1 to 4 carry the box: the box error is the
  mean of the four squared differences, written as a quarter of their sum. Per anchor column g the loss sums, over
  the 4096 rows, the masked box errors (the numerator), the masks (the denominator) and the class errors; the result
  is the class errors' total over 8192000 plus a tenth of the sum over g of numerator over (denominator + eps).

  What is proved here is arithmetic only: a quarter of a sum of four is the sum started from zero divided by four
  (one law, on every extended real, because the divisor is the real 4); a running sum that starts from zero and adds
  one tile's partial sum per step ends at the sum over all tiles; and a sum over 4096 rows is the sum over 512 tiles
  of the sum over the 8 rows of a tile. Addition on the extended reals is commutative and associative, so no
  finiteness is needed for the regrouping.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.AnchorLoss

open Idealize.ShloMosaic

/-! ## The constants -/

/-- The word of 0.25 denotes the real 1/4. -/
theorem quarter_eq : Ideal.ofBits .f32 0x3E800000#32 = (((1 / 4 : ℝ)) : EReal) := by
  simp [Ideal.ofBits, Ideal.ieee, -EReal.coe_mul]; norm_num

/-- The word of 4.0 denotes the real 4. -/
theorem four_eq : Ideal.ofBits .f32 0x40800000#32 = ((4 : ℝ) : EReal) := by
  simp [Ideal.ofBits, Ideal.ieee, -EReal.coe_mul]; norm_num

/-- The word of 1.0 denotes 1. -/
theorem one_eq : Ideal.ofBits .f32 0x3F800000#32 = 1 := by
  simp [Ideal.ofBits, Ideal.ieee, -EReal.coe_mul]; norm_num

/-! ## One anchor -/

/-- The 0/1 class target: the bit of "channel 0 of the target is above zero", read as a number. -/
def target (y : Fin 5 → EReal) : EReal :=
  FloatOps.uitofp (F := Ideal) .f32 (FloatOps.cmpf (F := Ideal) (φ := .f32) .ogt (y 0) (Ideal.ofBits .f32 0x00000000#32))

/-- The class error: the squared distance of the logistic of the predicted channel 0 from the target class. -/
def classErr (x y : Fin 5 → EReal) : EReal :=
  (Ideal.logistic (x 0) - target y) * (Ideal.logistic (x 0) - target y)

/-- The box error: a quarter of the four squared channel differences, summed left to right. -/
def boxErr (x y : Fin 5 → EReal) : EReal :=
  ((((x 1 - y 1) * (x 1 - y 1) + (x 2 - y 2) * (x 2 - y 2)) + (x 3 - y 3) * (x 3 - y 3))
    + (x 4 - y 4) * (x 4 - y 4)) * Ideal.ofBits .f32 0x3E800000#32

/-- The mean as the host takes it (the four squares summed from zero, divided by 4) is the quarter of the sum:
    division by the real 4 is multiplication by 1/4 on every extended real. -/
theorem mean_eq_boxErr (x y : Fin 5 → EReal) :
    Ideal.div (Ideal.ofBits .f32 0x00000000#32
        + ∑ k : Fin 4, (x ⟨1 + k.val, by omega⟩ - y ⟨1 + k.val, by omega⟩) * (x ⟨1 + k.val, by omega⟩ - y ⟨1 + k.val, by omega⟩))
      (Ideal.ofBits .f32 0x40800000#32) = boxErr x y := by
  rw [Fin.sum_univ_four, Ideal.ofBits_zero_f32, zero_add, four_eq, Ideal.div_coe (by norm_num : (4 : ℝ) ≠ 0)]
  unfold boxErr
  rw [quarter_eq]
  rfl

/-- The logistic as the host spells it, 1 / (1 + e^(-x)) with the word of 1.0 twice, is the logistic. -/
theorem host_logistic_eq (x : EReal) :
    Ideal.div (Ideal.ofBits .f32 0x3F800000#32) (Ideal.ofBits .f32 0x3F800000#32 + Ideal.exp (-x)) = Ideal.logistic x := by
  rw [one_eq]; rfl

/-! ## The whole loss -/

/-- A flat [4096, 10000] array read as anchors: channel k of the anchor at row b, column g sits at flat column 5 g + k. -/
abbrev anchors (x : (⟨2, ![4096, 10000]⟩ : Shape).Idx → EReal) (b : Fin 4096) (g : Fin 2000) : Fin 5 → EReal :=
  fun k => x (ValueIdx.ix2 b ⟨5 * g.val + k.val, by omega⟩)

/-- The loss of two arrays of anchors, rows by columns: with the per-column sums of masked box errors, of the masks
    and of the class errors, (0 + total class error) / 8192000 + 0.1 · (0 + sum over columns of numerator / (denominator + eps));
    the literals stay the words both programs print. -/
def loss (X Y : Fin 4096 → Fin 2000 → Fin 5 → EReal) : EReal :=
  Ideal.div (Ideal.ofBits .f32 0x00000000#32 + ∑ g : Fin 2000, ∑ b : Fin 4096, classErr (X b g) (Y b g))
      (Ideal.ofBits .f32 0x4AFA0000#32)
    + Ideal.ofBits .f32 0x3DCCCCCD#32
      * (Ideal.ofBits .f32 0x00000000#32
        + ∑ g : Fin 2000, Ideal.div (∑ b : Fin 4096, target (Y b g) * boxErr (X b g) (Y b g))
            ((∑ b : Fin 4096, target (Y b g)) + Ideal.ofBits .f32 0x3727C5AC#32))

/-! ## Regrouping sums -/

/-- A running sum that starts at 0 + f 0 and adds f (n + 1) at step n + 1 is, after step n, the sum of f up to n. -/
theorem running_sum {N : ℕ} (a : (n : ℕ) → n < N → EReal) (f : Fin N → EReal)
    (h0 : ∀ h, a 0 h = 0 + f ⟨0, h⟩)
    (hs : ∀ n (h : n + 1 < N), a (n + 1) h = a n (Nat.lt_of_succ_lt h) + f ⟨n + 1, h⟩) :
    ∀ n (h : n < N), a n h = ∑ s : Fin (n + 1), f ⟨s.val, lt_of_lt_of_le s.isLt h⟩
  | 0, h => by rw [h0, zero_add, Fin.sum_univ_one]; rfl
  | n + 1, h => by
    rw [hs n h, running_sum a f h0 hs n (Nat.lt_of_succ_lt h)]
    exact (Fin.sum_univ_castSucc (fun s : Fin (n + 1 + 1) => f ⟨s.val, lt_of_lt_of_le s.isLt h⟩)).symm

/-- The sum over 4096 rows is the sum over 512 tiles of the sum over the 8 rows of a tile; row r of tile s is row 8 s + r. -/
theorem sum_rows_by_tiles (f : Fin 4096 → EReal) :
    ∑ b : Fin 4096, f b = ∑ s : Fin 512, ∑ r : Fin 8, f ⟨8 * s.val + r.val, by omega⟩ := by
  rw [← Equiv.sum_comp (finProdFinEquiv : Fin 512 × Fin 8 ≃ Fin 4096) f, Fintype.sum_prod_type]
  refine Finset.sum_congr rfl fun s _ => Finset.sum_congr rfl fun r _ => congrArg f (Fin.ext ?_)
  show r.val + 8 * s.val = 8 * s.val + r.val
  omega

end Cert.AnchorLoss

end
-- ==== Proof.KernelTile.lean ====
/-
  One grid point of the kernel, read as values.

  The kernel walks 512 tiles of 8 rows. At each tile it forms, for every anchor of the tile, the 0/1 mask, the class
  error and the masked box error, sums each of the three down the tile's 8 rows, and adds the three rows of column
  sums into three accumulators that stay resident; the first tile first resets them to zero. This module reads what a
  point leaves in the accumulators (the stored payloads), reads each payload at an index as the anchor arithmetic of
  the loss, reads a tile's anchor as an anchor of the argument arrays (row 8 t + r of the reshaped array is row
  8 t + r, flat column 5 g + k of the argument), and states the accumulators after a point from those before it.
-/
import proofs.«176531_j14594298871844_1_alg».proof.Defs
import proofs.«176531_j14594298871844_1_alg».proof.Proof.Gen.KernelIdeal.Frame
import proofs.«176531_j14594298871844_1_alg».proof.Proof.LossSpec
import Idealize.ShloMosaic.Lib.Pipeline.Value
import Idealize.ShloMosaic.Lib.StableHlo.Run
import Idealize.ShloMosaic.Lib.KernelVsHost
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.AnchorValue

open Cert.KernelIdeal Cert.KernelIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves in the three accumulators -/

/-- At a later point the numerator accumulator ends at its old contents plus the tile's column sums of the masked box errors. -/
theorem out_B_2 (c : Dev nD) (i : grid0.Coords) (a1 : Memref sig .tc .vmem S8x2000x5 .f32) (h1 : a1.IsWhole)
    (a2 : Memref sig .tc .vmem S8x2000x5 .f32) (h2 : a2.IsWhole) (a3 : Memref sig .tc .vmem S1x2000 .f32) (h3 : a3.IsWhole)
    (a4 : Memref sig .tc .vmem S1x2000 .f32) (h4 : a4.IsWhole) (a5 : Memref sig .tc .vmem S1x2000 .f32) (h5 : a5.IsWhole)
    (hc : ¬cond0_0 i) (x0 x1 : Vec F S8x2000x5 .f32) (xo2 xo3 xo4 : Vec F S1x2000 .f32) :
    out0_B_2 c i a1 h1 a2 h2 a3 h3 a4 h4 a5 h5 hc x0 x1 xo2 xo3 xo4 = k0_pay1 (k0_pay11 x0 x1) xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S8x2000x5) hz3, View.ld_unit_zero (S := S1x2000) hz2]

/-- At a later point the denominator accumulator ends at its old contents plus the tile's column sums of the masks. -/
theorem out_B_3 (c : Dev nD) (i : grid0.Coords) (a1 : Memref sig .tc .vmem S8x2000x5 .f32) (h1 : a1.IsWhole)
    (a2 : Memref sig .tc .vmem S8x2000x5 .f32) (h2 : a2.IsWhole) (a3 : Memref sig .tc .vmem S1x2000 .f32) (h3 : a3.IsWhole)
    (a4 : Memref sig .tc .vmem S1x2000 .f32) (h4 : a4.IsWhole) (a5 : Memref sig .tc .vmem S1x2000 .f32) (h5 : a5.IsWhole)
    (hc : ¬cond0_0 i) (x0 x1 : Vec F S8x2000x5 .f32) (xo2 xo3 xo4 : Vec F S1x2000 .f32) :
    out0_B_3 c i a1 h1 a2 h2 a3 h3 a4 h4 a5 h5 hc x0 x1 xo2 xo3 xo4 = k0_pay2 (k0_pay9 x1) xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S8x2000x5) hz3, View.ld_unit_zero (S := S1x2000) hz2]

/-- At a later point the class accumulator ends at its old contents plus the tile's column sums of the class errors. -/
theorem out_B_4 (c : Dev nD) (i : grid0.Coords) (a1 : Memref sig .tc .vmem S8x2000x5 .f32) (h1 : a1.IsWhole)
    (a2 : Memref sig .tc .vmem S8x2000x5 .f32) (h2 : a2.IsWhole) (a3 : Memref sig .tc .vmem S1x2000 .f32) (h3 : a3.IsWhole)
    (a4 : Memref sig .tc .vmem S1x2000 .f32) (h4 : a4.IsWhole) (a5 : Memref sig .tc .vmem S1x2000 .f32) (h5 : a5.IsWhole)
    (hc : ¬cond0_0 i) (x0 x1 : Vec F S8x2000x5 .f32) (xo2 xo3 xo4 : Vec F S1x2000 .f32) :
    out0_B_4 c i a1 h1 a2 h2 a3 h3 a4 h4 a5 h5 hc x0 x1 xo2 xo3 xo4 = k0_pay3 (k0_pay10 x0 x1) xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S8x2000x5) hz3, View.ld_unit_zero (S := S1x2000) hz2]

/-- At the first point the numerator accumulator is reset to zero, read back, and ends at zero plus the tile's column sums. -/
theorem out_A_2 (c : Dev nD) (i : grid0.Coords) (a1 : Memref sig .tc .vmem S8x2000x5 .f32) (h1 : a1.IsWhole)
    (a2 : Memref sig .tc .vmem S8x2000x5 .f32) (h2 : a2.IsWhole) (a3 : Memref sig .tc .vmem S1x2000 .f32) (h3 : a3.IsWhole)
    (a4 : Memref sig .tc .vmem S1x2000 .f32) (h4 : a4.IsWhole) (a5 : Memref sig .tc .vmem S1x2000 .f32) (h5 : a5.IsWhole)
    (hc : cond0_0 i) (x0 x1 : Vec F S8x2000x5 .f32) :
    out0_A_2 c i a1 h1 a2 h2 a3 h3 a4 h4 a5 h5 hc x0 x1 = k0_pay1 (k0_pay11 x0 x1) (k0_pay4 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S1x2000) hz2, View.readCov_unit_zero (S := S1x2000) _ hz2]
  simp only [View.readAt_eq_ld, h1.read_unread, h2.read_unread, View.ld_unit_zero (S := S8x2000x5) hz3]

/-- At the first point the denominator accumulator ends at zero plus the tile's column sums of the masks. -/
theorem out_A_3 (c : Dev nD) (i : grid0.Coords) (a1 : Memref sig .tc .vmem S8x2000x5 .f32) (h1 : a1.IsWhole)
    (a2 : Memref sig .tc .vmem S8x2000x5 .f32) (h2 : a2.IsWhole) (a3 : Memref sig .tc .vmem S1x2000 .f32) (h3 : a3.IsWhole)
    (a4 : Memref sig .tc .vmem S1x2000 .f32) (h4 : a4.IsWhole) (a5 : Memref sig .tc .vmem S1x2000 .f32) (h5 : a5.IsWhole)
    (hc : cond0_0 i) (x0 x1 : Vec F S8x2000x5 .f32) :
    out0_A_3 c i a1 h1 a2 h2 a3 h3 a4 h4 a5 h5 hc x0 x1 = k0_pay2 (k0_pay9 x1) (k0_pay5 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x2000) hz2, View.readCov_unit_zero (S := S1x2000) _ hz2]
  simp only [View.readAt_eq_ld, h1.read_unread, h2.read_unread, View.ld_unit_zero (S := S8x2000x5) hz3]

/-- At the first point the class accumulator ends at zero plus the tile's column sums of the class errors. -/
theorem out_A_4 (c : Dev nD) (i : grid0.Coords) (a1 : Memref sig .tc .vmem S8x2000x5 .f32) (h1 : a1.IsWhole)
    (a2 : Memref sig .tc .vmem S8x2000x5 .f32) (h2 : a2.IsWhole) (a3 : Memref sig .tc .vmem S1x2000 .f32) (h3 : a3.IsWhole)
    (a4 : Memref sig .tc .vmem S1x2000 .f32) (h4 : a4.IsWhole) (a5 : Memref sig .tc .vmem S1x2000 .f32) (h5 : a5.IsWhole)
    (hc : cond0_0 i) (x0 x1 : Vec F S8x2000x5 .f32) :
    out0_A_4 c i a1 h1 a2 h2 a3 h3 a4 h4 a5 h5 hc x0 x1 = k0_pay3 (k0_pay10 x0 x1) (k0_pay6 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x2000) hz2, View.readCov_unit_zero (S := S1x2000) _ hz2]
  simp only [View.readAt_eq_ld, h1.read_unread, h2.read_unread, View.ld_unit_zero (S := S8x2000x5) hz3]

/-! ## The tile's arithmetic read at an index, over the extended reals -/

/-- Channel k of the anchor at row r and column g of a tile: the slice of channel k with its unit axis dropped. -/
theorem chan_apply {α : Type} (v : S8x2000x5.Idx → α) (k : Fin 5) (off : Fin 3 → Nat) (hoff : off = ![0, 0, k.val])
    (hs : S8x2000x5.Slices off S8x2000x1) (hc : S8x2000x1.ShapeCasts S8x2000) (hself : S8x2000x5.ShapeCasts S8x2000x5)
    (r : Fin 8) (g : Fin 2000) :
    shapeCast S8x2000 (extractStridedSlice S8x2000x1 off (shapeCast S8x2000x5 v hself) hs) hc (ix2 r g) = v (ix3 r g k) := by
  subst hoff
  rw [shapeCast_self,
    shapeCast_apply _ hc (ix2 r g) (ix3 r g (0 : Fin 1)) (by
      rw [Shape.rowMajor_val_three, Shape.rowMajor_val_two]
      show (r.val * 2000 + g.val) * 1 + 0 = r.val * 2000 + g.val
      omega)]
  exact extractStridedSlice_apply _ v hs _ (ix3 r g k) (fun a => match a with
    | ⟨0, _⟩ => by show r.val = 0 + r.val; omega
    | ⟨1, _⟩ => by show g.val = 0 + g.val; omega
    | ⟨2, _⟩ => by show k.val = k.val + 0; omega)

/-- The mask of a tile at (r, g) is the 0/1 target of that anchor: the comparison's bit widened and converted signed is
    the bit converted unsigned. -/
theorem mask_apply (x1 : Vec Ideal S8x2000x5 .f32) (r : Fin 8) (g : Fin 2000) :
    k0_pay9 x1 (ix2 r g) = AnchorLoss.target (fun k => x1 (ix3 r g k)) := by
  unfold k0_pay9 k0_pay8
  dsimp only
  rw [sitofp_extui_eq_uitofp]
  have e0 := chan_apply x1 0 ![0, 0, 0] rfl slices_S8x2000x5_o0_0_0_S8x2000x1 shapeCasts_S8x2000x1_S8x2000 shapeCasts_S8x2000x5_S8x2000x5 r g
  unfold AnchorLoss.target
  dsimp only
  rw [← e0]
  rfl

/-- The class error of a tile at (r, g). -/
theorem cls_apply (x0 x1 : Vec Ideal S8x2000x5 .f32) (r : Fin 8) (g : Fin 2000) :
    k0_pay10 x0 x1 (ix2 r g) = AnchorLoss.classErr (fun k => x0 (ix3 r g k)) (fun k => x1 (ix3 r g k)) := by
  unfold k0_pay10 k0_pay7
  dsimp only
  have e0 := chan_apply x0 0 ![0, 0, 0] rfl slices_S8x2000x5_o0_0_0_S8x2000x1 shapeCasts_S8x2000x1_S8x2000 shapeCasts_S8x2000x5_S8x2000x5 r g
  unfold AnchorLoss.classErr
  dsimp only
  rw [← mask_apply x1 r g, ← e0]
  rfl

/-- The masked box error of a tile at (r, g). -/
theorem box_apply (x0 x1 : Vec Ideal S8x2000x5 .f32) (r : Fin 8) (g : Fin 2000) :
    k0_pay11 x0 x1 (ix2 r g)
      = AnchorLoss.target (fun k => x1 (ix3 r g k)) * AnchorLoss.boxErr (fun k => x0 (ix3 r g k)) (fun k => x1 (ix3 r g k)) := by
  unfold k0_pay11 k0_pay7 k0_pay8
  dsimp only
  have a1 := chan_apply x0 1 ![0, 0, 1] rfl slices_S8x2000x5_o0_0_1_S8x2000x1 shapeCasts_S8x2000x1_S8x2000 shapeCasts_S8x2000x5_S8x2000x5 r g
  have a2 := chan_apply x0 2 ![0, 0, 2] rfl slices_S8x2000x5_o0_0_2_S8x2000x1 shapeCasts_S8x2000x1_S8x2000 shapeCasts_S8x2000x5_S8x2000x5 r g
  have a3 := chan_apply x0 3 ![0, 0, 3] rfl slices_S8x2000x5_o0_0_3_S8x2000x1 shapeCasts_S8x2000x1_S8x2000 shapeCasts_S8x2000x5_S8x2000x5 r g
  have a4 := chan_apply x0 4 ![0, 0, 4] rfl slices_S8x2000x5_o0_0_4_S8x2000x1 shapeCasts_S8x2000x1_S8x2000 shapeCasts_S8x2000x5_S8x2000x5 r g
  have b1 := chan_apply x1 1 ![0, 0, 1] rfl slices_S8x2000x5_o0_0_1_S8x2000x1 shapeCasts_S8x2000x1_S8x2000 shapeCasts_S8x2000x5_S8x2000x5 r g
  have b2 := chan_apply x1 2 ![0, 0, 2] rfl slices_S8x2000x5_o0_0_2_S8x2000x1 shapeCasts_S8x2000x1_S8x2000 shapeCasts_S8x2000x5_S8x2000x5 r g
  have b3 := chan_apply x1 3 ![0, 0, 3] rfl slices_S8x2000x5_o0_0_3_S8x2000x1 shapeCasts_S8x2000x1_S8x2000 shapeCasts_S8x2000x5_S8x2000x5 r g
  have b4 := chan_apply x1 4 ![0, 0, 4] rfl slices_S8x2000x5_o0_0_4_S8x2000x1 shapeCasts_S8x2000x1_S8x2000 shapeCasts_S8x2000x5_S8x2000x5 r g
  unfold AnchorLoss.boxErr
  dsimp only
  rw [← mask_apply x1 r g, ← a1, ← a2, ← a3, ← a4, ← b1, ← b2, ← b3, ← b4]
  rfl

/-- An accumulator's update read at column g: the old entry plus the sum over the tile's 8 rows of that column. -/
theorem colsum_apply (v : FVec Ideal S8x2000 .f32) (acc : Vec Ideal S1x2000 .f32) (hr : S8x2000.Reduces [0] S2000)
    (hc : S2000.ShapeCasts S1x2000) (hs : S1x2000.ShapeCasts S1x2000) (hφ : FKind.Formats .f32)
    (hacc : (0x00000000#32 : BitVec 32) = FKind.add.neutral .f32 hφ) (g : Fin 2000) :
    addf (shapeCast S1x2000 acc hs) (shapeCast S1x2000 (multiReduction .add [0] S2000 v 0x00000000#32 hr hφ hacc) hc) (ix2 0 g)
      = acc (ix2 0 g) + ∑ r : Fin 8, v (ix2 r g) := by
  show (shapeCast S1x2000 acc hs) (ix2 0 g) + (shapeCast S1x2000 (multiReduction .add [0] S2000 v 0x00000000#32 hr hφ hacc) hc) (ix2 0 g) = _
  rw [shapeCast_self,
    shapeCast_apply _ hc (ix2 0 g) (ix1 g) (by
      rw [Shape.rowMajor_val_one, Shape.rowMajor_val_two]
      show g.val = 0 * 2000 + g.val
      omega),
    Ideal.multiReduction_add_single]
  refine congrArg (acc (ix2 0 g) + ·) (Finset.sum_congr rfl fun r _ => congrArg v (funext fun a => Fin.ext (by
    match a with | ⟨0, _⟩ => rfl | ⟨1, _⟩ => rfl)))

theorem pay1_apply (v : FVec Ideal S8x2000 .f32) (acc : Vec Ideal S1x2000 .f32) (g : Fin 2000) :
    k0_pay1 v acc (ix2 0 g) = acc (ix2 0 g) + ∑ r : Fin 8, v (ix2 r g) := by
  unfold k0_pay1; exact colsum_apply v acc _ _ _ _ _ g
theorem pay2_apply (v : FVec Ideal S8x2000 .f32) (acc : Vec Ideal S1x2000 .f32) (g : Fin 2000) :
    k0_pay2 v acc (ix2 0 g) = acc (ix2 0 g) + ∑ r : Fin 8, v (ix2 r g) := by
  unfold k0_pay2; exact colsum_apply v acc _ _ _ _ _ g
theorem pay3_apply (v : FVec Ideal S8x2000 .f32) (acc : Vec Ideal S1x2000 .f32) (g : Fin 2000) :
    k0_pay3 v acc (ix2 0 g) = acc (ix2 0 g) + ∑ r : Fin 8, v (ix2 r g) := by
  unfold k0_pay3; exact colsum_apply v acc _ _ _ _ _ g

/-! ## The tiles as the region finds them -/

/-- The prediction tile and the target tile of grid point t, at their literal type. -/
abbrev tileX (c : Dev nD) (t : Fin cfg0.N) : Vec F S8x2000x5 .f32 := iblk m c 0 t
abbrev tileY (c : Dev nD) (t : Fin cfg0.N) : Vec F S8x2000x5 .f32 := iblk m c 1 t

/-- The region finds the reshaped prediction array: the host's reshape of the first argument. -/
theorem V_pred (c : Dev nD) :
    (V m c main_call0_v0 : S4096x2000x5.Idx → Elt F .f32)
      = shapeCast S4096x2000x5 (m ((c : Thread nD τ).loc main_arg0)) shapeCasts_S4096x10000_S4096x2000x5 := by
  show StableHlo.after hostOps0 (fun b => m (c, b)) (Proc.devRef .tc main_call0_v0) = _
  after_results
  rfl

/-- The region finds the reshaped target array: the host's reshape of the second argument. -/
theorem V_targ (c : Dev nD) :
    (V m c main_call0_v1 : S4096x2000x5.Idx → Elt F .f32)
      = shapeCast S4096x2000x5 (m ((c : Thread nD τ).loc main_arg1)) shapeCasts_S4096x10000_S4096x2000x5 := by
  show StableHlo.after hostOps0 (fun b => m (c, b)) (Proc.devRef .tc main_call0_v1) = _
  after_results
  rfl

/-- Where the input windows' blocks sit: block t starts at row 8 t, column 0, channel 0 (decided over the grid). -/
theorem idx_in0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx_in1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Channel k of row r, column g of the prediction tile at point t is the first argument at row 8 t + r, flat column 5 g + k. -/
theorem tileX_apply (c : Dev nD) (t : Fin cfg0.N) (r : Fin 8) (g : Fin 2000) (k : Fin 5) (hb : 8 * t.val + r.val < 4096) :
    tileX m c t (ix3 r g k) = m ((c : Thread nD τ).loc main_arg0) (ix2 ⟨8 * t.val + r.val, hb⟩ ⟨5 * g.val + k.val, by omega⟩) := by
  unfold tileX iblk
  rw [View.read_apply]
  show V m c main_call0_v0 (((cfg0.win 0).blk t).view.emb (ix3 r g k)) = _
  rw [V_pred]
  refine shapeCast_apply _ _ _ _ ?_
  show (S4096x10000.rowMajor (ix2 ⟨8 * t.val + r.val, hb⟩ ⟨5 * g.val + k.val, by omega⟩)).val
    = (S4096x2000x5.rowMajor (((cfg0.win 0).blk t).view.emb (ix3 r g k))).val
  rw [Shape.rowMajor_val_two, Shape.rowMajor_val_three]
  show (8 * t.val + r.val) * 10000 + (5 * g.val + k.val)
    = ((win0_0.index t 0 * 8 + 1 * r.val) * 2000 + (win0_0.index t 1 * 2000 + 1 * g.val)) * 5 + (win0_0.index t 2 * 5 + 1 * k.val)
  obtain ⟨h0, h1, h2⟩ := idx_in0 t
  rw [h0, h1, h2]
  omega

theorem tileY_apply (c : Dev nD) (t : Fin cfg0.N) (r : Fin 8) (g : Fin 2000) (k : Fin 5) (hb : 8 * t.val + r.val < 4096) :
    tileY m c t (ix3 r g k) = m ((c : Thread nD τ).loc main_arg1) (ix2 ⟨8 * t.val + r.val, hb⟩ ⟨5 * g.val + k.val, by omega⟩) := by
  unfold tileY iblk
  rw [View.read_apply]
  show V m c main_call0_v1 (((cfg0.win 1).blk t).view.emb (ix3 r g k)) = _
  rw [V_targ]
  refine shapeCast_apply _ _ _ _ ?_
  show (S4096x10000.rowMajor (ix2 ⟨8 * t.val + r.val, hb⟩ ⟨5 * g.val + k.val, by omega⟩)).val
    = (S4096x2000x5.rowMajor (((cfg0.win 1).blk t).view.emb (ix3 r g k))).val
  rw [Shape.rowMajor_val_two, Shape.rowMajor_val_three]
  show (8 * t.val + r.val) * 10000 + (5 * g.val + k.val)
    = ((win0_1.index t 0 * 8 + 1 * r.val) * 2000 + (win0_1.index t 1 * 2000 + 1 * g.val)) * 5 + (win0_1.index t 2 * 5 + 1 * k.val)
  obtain ⟨h0, h1, h2⟩ := idx_in1 t
  rw [h0, h1, h2]
  omega

/-! ## The accumulators point by point -/

/-- After the first point: each accumulator holds zero plus the first tile's column sums. -/
theorem outs_first (c : Dev nD) (h : 0 < cfg0.N) :
    outsAt0 m c 0 h
      = (k0_pay1 (k0_pay11 (tileX m c ⟨0, h⟩) (tileY m c ⟨0, h⟩)) (k0_pay4 (F := F)),
         k0_pay2 (k0_pay9 (tileY m c ⟨0, h⟩)) (k0_pay5 (F := F)),
         k0_pay3 (k0_pay10 (tileX m c ⟨0, h⟩) (tileY m c ⟨0, h⟩)) (k0_pay6 (F := F))) := by
  rw [outsAt0_A m c ⟨0, h⟩ rfl, out_A_2, out_A_3, out_A_4]

/-- After a later point: each accumulator holds what the point before left plus this tile's column sums. -/
theorem outs_next (c : Dev nD) (n : ℕ) (h : n + 1 < cfg0.N) :
    outsAt0 m c (n + 1) h
      = (k0_pay1 (k0_pay11 (tileX m c ⟨n + 1, h⟩) (tileY m c ⟨n + 1, h⟩)) (outsAt0 m c n (Nat.lt_of_succ_lt h)).1,
         k0_pay2 (k0_pay9 (tileY m c ⟨n + 1, h⟩)) (outsAt0 m c n (Nat.lt_of_succ_lt h)).2.1,
         k0_pay3 (k0_pay10 (tileX m c ⟨n + 1, h⟩) (tileY m c ⟨n + 1, h⟩)) (outsAt0 m c n (Nat.lt_of_succ_lt h)).2.2) := by
  have hN : cfg0.N = 512 := N_0
  have hB : ¬(⟨n + 1, h⟩ : Fin cfg0.N).val % 512 = 0 := by dsimp only; omega
  rw [outsAt0_B m c ⟨n + 1, h⟩ hB, out_B_2, out_B_3, out_B_4]
  rfl

end Cert.KernelIdeal.AnchorValue

end
-- ==== Proof.KernelSums.lean ====
/-
  The kernel's run, read as the loss.

  The three accumulators are never written back before the last tile, so the three [1, 2000] result arrays end holding
  the accumulators after point 511. By induction over the points an accumulator after point n is the sum over tiles
  0 to n of the tile's column sums, and over all 512 tiles that is the sum over the 4096 rows. The sixteen host
  operations after the region reshape the three arrays, add eps, divide, total and combine; read index by index over
  the extended reals they are the loss of the two arguments.
-/
import Idealize.ShloMosaic.Lib.ValueIdxRank1
import proofs.«176531_j14594298871844_1_alg».proof.Proof.KernelTile

noncomputable section

open Idealize.ShloMosaic Idealize.ShloMosaic.TcCoe Idealize.SL.Sem
open Idealize.ShloMosaic.Pipeline (Dat)
open Idealize.ShloMosaic.ValueIdx

namespace Cert.KernelIdeal.AnchorValue

open Cert.KernelIdeal Cert.KernelIdeal.Gen

variable {F : FTy → Type} [FloatOps F]
variable (m : (ℓ : Loc nD τ sig) → Buf (Elt F) ℓ) (ρ : Dev nD → PrngReg)

/-! ## The three result arrays of the region -/

/-- The last grid point. -/
abbrev tLast : Fin cfg0.N := ⟨511, by rw [show cfg0.N = 512 from N_0]; decide⟩

/-- The accumulators depend on the point's number only. -/
theorem outs_congr (c : Dev nD) {n n' : ℕ} (e : n = n') (h : n < cfg0.N) (h' : n' < cfg0.N) :
    outsAt0 m c n h = outsAt0 m c n' h' := by subst e; rfl

/-- The three accumulators after the last point, named once: what follows speaks of them only through their sums. -/
@[irreducible] def lastOuts (c : Dev nD) : Vec F S1x2000 .f32 × Vec F S1x2000 .f32 × Vec F S1x2000 .f32 :=
  outsAt0 m c 511 tLast.isLt
theorem lastOuts_def (c : Dev nD) : lastOuts m c = outsAt0 m c 511 tLast.isLt := by unfold lastOuts; rfl
theorem lastOuts_eq (c : Dev nD) (t : Fin cfg0.N) (h3 : t.val = 511) : outsAt0 m c t.val t.isLt = lastOuts m c := by
  rw [lastOuts_def]; exact outs_congr m c h3 _ _

/-- The numerator array the region leaves: the first accumulator after the last point. -/
abbrev numArr (c : Dev nD) : Buf (Elt F) ((c : Thread nD τ).loc main_call0_v2_0) := (lastOuts m c).1

/-- Where window 2's block sits: always at row 0, column 0 (decided over the grid). -/
theorem idx_out2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The one write-back of window 2, after the last point, writes the accumulator: its block is the whole [1, 2000] array. -/
theorem flushed_eq2 (c : Dev nD) (t : Fin cfg0.N) (hf : (cfg0.win 2).flush t = true) :
    (dats m 0 c).flushed 2 t = ((cfg0.win 2).blk t).view.read (Elt F) (numArr m c) := by
  have hN : cfg0.N = 512 := N_0
  have h3 : t.val = 511 := by have := (flush0_2 t).mp hf; have := t.isLt; omega
  show (cfg0.win 2).cut (grid0.coords t) ((dats m 0 c).after 2 t) = _
  rw [after0_2, lastOuts_eq m c t h3]
  obtain ⟨e0, e1⟩ := idx_out2 t
  funext j
  have hj : ((cfg0.win 2).xinj (grid0.coords t) j : S1x2000.Idx) = (((cfg0.win 2).blk t).view.emb j : S1x2000.Idx) :=
    funext fun a => Fin.ext (by
      match a with
      | ⟨0, _⟩ => show (j 0).val = win0_2.index t (0 : Fin 2) * 1 + 1 * (j 0).val; omega
      | ⟨1, _⟩ => show (j 1).val = win0_2.index t (1 : Fin 2) * 2000 + 1 * (j 1).val; omega)
  rw [View.read_apply]
  show (lastOuts m c).1 ((cfg0.win 2).xinj (grid0.coords t) j) = (lastOuts m c).1 (((cfg0.win 2).blk t).view.emb j)
  rw [hj]

/-- An index of the array is in point t's block iff each coordinate is in the block's range on its axis. -/
theorem mem_blk2 (t : Fin cfg0.N) (i : S1x2000.Idx) :
    i ∈ ((cfg0.win 2).blk t).view.set ↔ ∀ a : Fin 2, win0_2.index t a * S1x2000.size a ≤ (i a).val ∧ (i a).val < win0_2.index t a * S1x2000.size a + S1x2000.size a := by
  show i ∈ ((View.whole main_call0_v2_0).slice (win0_2.rect t)).set ↔ _
  rw [View.set_slice_whole, Rect.mem_set_unit]
  exact Iff.rfl

/-- So the array ends holding the accumulator after the last point. -/
theorem final2 (c : Dev nD) : (dats m 0 c).arrAt 2 cfg0.N = numArr m c :=
  (dats m 0 c).arrAt_eq_of_cover 2 (numArr m c) (flushed_eq2 m c) fun i =>
    ⟨tLast, (flush0_2 tLast).mpr rfl, by
      rw [mem_blk2]
      obtain ⟨e0, e1⟩ := idx_out2 tLast
      intro a
      have h0 : (i 0).val < 1 := (i 0).isLt
      have h1 : (i 1).val < 2000 := (i 1).isLt
      match a with
      | ⟨0, _⟩ => show win0_2.index tLast (0 : Fin 2) * 1 ≤ (i 0).val ∧ (i 0).val < win0_2.index tLast (0 : Fin 2) * 1 + 1; omega
      | ⟨1, _⟩ => show win0_2.index tLast (1 : Fin 2) * 2000 ≤ (i 1).val ∧ (i 1).val < win0_2.index tLast (1 : Fin 2) * 2000 + 2000; omega⟩

/-- The denominator array the region leaves: the second accumulator after the last point. -/
abbrev denArr (c : Dev nD) : Buf (Elt F) ((c : Thread nD τ).loc main_call0_v2_1) := (lastOuts m c).2.1

/-- Where window 3's block sits: always at row 0, column 0 (decided over the grid). -/
theorem idx_out3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The one write-back of window 3, after the last point, writes the accumulator: its block is the whole [1, 2000] array. -/
theorem flushed_eq3 (c : Dev nD) (t : Fin cfg0.N) (hf : (cfg0.win 3).flush t = true) :
    (dats m 0 c).flushed 3 t = ((cfg0.win 3).blk t).view.read (Elt F) (denArr m c) := by
  have hN : cfg0.N = 512 := N_0
  have h3 : t.val = 511 := by have := (flush0_3 t).mp hf; have := t.isLt; omega
  show (cfg0.win 3).cut (grid0.coords t) ((dats m 0 c).after 3 t) = _
  rw [after0_3, lastOuts_eq m c t h3]
  obtain ⟨e0, e1⟩ := idx_out3 t
  funext j
  have hj : ((cfg0.win 3).xinj (grid0.coords t) j : S1x2000.Idx) = (((cfg0.win 3).blk t).view.emb j : S1x2000.Idx) :=
    funext fun a => Fin.ext (by
      match a with
      | ⟨0, _⟩ => show (j 0).val = win0_3.index t (0 : Fin 2) * 1 + 1 * (j 0).val; omega
      | ⟨1, _⟩ => show (j 1).val = win0_3.index t (1 : Fin 2) * 2000 + 1 * (j 1).val; omega)
  rw [View.read_apply]
  show (lastOuts m c).2.1 ((cfg0.win 3).xinj (grid0.coords t) j) = (lastOuts m c).2.1 (((cfg0.win 3).blk t).view.emb j)
  rw [hj]

/-- An index of the array is in point t's block iff each coordinate is in the block's range on its axis. -/
theorem mem_blk3 (t : Fin cfg0.N) (i : S1x2000.Idx) :
    i ∈ ((cfg0.win 3).blk t).view.set ↔ ∀ a : Fin 2, win0_3.index t a * S1x2000.size a ≤ (i a).val ∧ (i a).val < win0_3.index t a * S1x2000.size a + S1x2000.size a := by
  show i ∈ ((View.whole main_call0_v2_1).slice (win0_3.rect t)).set ↔ _
  rw [View.set_slice_whole, Rect.mem_set_unit]
  exact Iff.rfl

/-- So the array ends holding the accumulator after the last point. -/
theorem final3 (c : Dev nD) : (dats m 0 c).arrAt 3 cfg0.N = denArr m c :=
  (dats m 0 c).arrAt_eq_of_cover 3 (denArr m c) (flushed_eq3 m c) fun i =>
    ⟨tLast, (flush0_3 tLast).mpr rfl, by
      rw [mem_blk3]
      obtain ⟨e0, e1⟩ := idx_out3 tLast
      intro a
      have h0 : (i 0).val < 1 := (i 0).isLt
      have h1 : (i 1).val < 2000 := (i 1).isLt
      match a with
      | ⟨0, _⟩ => show win0_3.index tLast (0 : Fin 2) * 1 ≤ (i 0).val ∧ (i 0).val < win0_3.index tLast (0 : Fin 2) * 1 + 1; omega
      | ⟨1, _⟩ => show win0_3.index tLast (1 : Fin 2) * 2000 ≤ (i 1).val ∧ (i 1).val < win0_3.index tLast (1 : Fin 2) * 2000 + 2000; omega⟩

/-- The class-error array the region leaves: the third accumulator after the last point. -/
abbrev clsArr (c : Dev nD) : Buf (Elt F) ((c : Thread nD τ).loc main_call0_v2_2) := (lastOuts m c).2.2

/-- Where window 4's block sits: always at row 0, column 0 (decided over the grid). -/
theorem idx_out4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The one write-back of window 4, after the last point, writes the accumulator: its block is the whole [1, 2000] array. -/
theorem flushed_eq4 (c : Dev nD) (t : Fin cfg0.N) (hf : (cfg0.win 4).flush t = true) :
    (dats m 0 c).flushed 4 t = ((cfg0.win 4).blk t).view.read (Elt F) (clsArr m c) := by
  have hN : cfg0.N = 512 := N_0
  have h3 : t.val = 511 := by have := (flush0_4 t).mp hf; have := t.isLt; omega
  show (cfg0.win 4).cut (grid0.coords t) ((dats m 0 c).after 4 t) = _
  rw [after0_4, lastOuts_eq m c t h3]
  obtain ⟨e0, e1⟩ := idx_out4 t
  funext j
  have hj : ((cfg0.win 4).xinj (grid0.coords t) j : S1x2000.Idx) = (((cfg0.win 4).blk t).view.emb j : S1x2000.Idx) :=
    funext fun a => Fin.ext (by
      match a with
      | ⟨0, _⟩ => show (j 0).val = win0_4.index t (0 : Fin 2) * 1 + 1 * (j 0).val; omega
      | ⟨1, _⟩ => show (j 1).val = win0_4.index t (1 : Fin 2) * 2000 + 1 * (j 1).val; omega)
  rw [View.read_apply]
  show (lastOuts m c).2.2 ((cfg0.win 4).xinj (grid0.coords t) j) = (lastOuts m c).2.2 (((cfg0.win 4).blk t).view.emb j)
  rw [hj]

/-- An index of the array is in point t's block iff each coordinate is in the block's range on its axis. -/
theorem mem_blk4 (t : Fin cfg0.N) (i : S1x2000.Idx) :
    i ∈ ((cfg0.win 4).blk t).view.set ↔ ∀ a : Fin 2, win0_4.index t a * S1x2000.size a ≤ (i a).val ∧ (i a).val < win0_4.index t a * S1x2000.size a + S1x2000.size a := by
  show i ∈ ((View.whole main_call0_v2_2).slice (win0_4.rect t)).set ↔ _
  rw [View.set_slice_whole, Rect.mem_set_unit]
  exact Iff.rfl

/-- So the array ends holding the accumulator after the last point. -/
theorem final4 (c : Dev nD) : (dats m 0 c).arrAt 4 cfg0.N = clsArr m c :=
  (dats m 0 c).arrAt_eq_of_cover 4 (clsArr m c) (flushed_eq4 m c) fun i =>
    ⟨tLast, (flush0_4 tLast).mpr rfl, by
      rw [mem_blk4]
      obtain ⟨e0, e1⟩ := idx_out4 tLast
      intro a
      have h0 : (i 0).val < 1 := (i 0).isLt
      have h1 : (i 1).val < 2000 := (i 1).isLt
      match a with
      | ⟨0, _⟩ => show win0_4.index tLast (0 : Fin 2) * 1 ≤ (i 0).val ∧ (i 0).val < win0_4.index tLast (0 : Fin 2) * 1 + 1; omega
      | ⟨1, _⟩ => show win0_4.index tLast (1 : Fin 2) * 2000 ≤ (i 1).val ∧ (i 1).val < win0_4.index tLast (1 : Fin 2) * 2000 + 2000; omega⟩

/-! ## The host operations after the region -/

/-- What the sixteen host operations after the region compute from the three arrays: each array as a [2000] vector,
    the class errors' total over 8192000, plus a tenth of the total of numerator over (denominator + eps). -/
def finish (num den cls : Vec F S1x2000 .f32) : FVec F S_ .f32 :=
  addf
    (Host.divf (Host.reduceAdd (shapeCast S2000 cls shapeCasts_S1x2000_S2000) (constant S_ .f32 0x00000000#32) reducesTo_S2000_S_d0 h_S_)
      (constant S_ .f32 0x4AFA0000#32))
    (mulf (constant S_ .f32 0x3DCCCCCD#32)
      (Host.reduceAdd
        (Host.divf (shapeCast S2000 num shapeCasts_S1x2000_S2000)
          (addf (shapeCast S2000 den shapeCasts_S1x2000_S2000) (broadcastInDim S2000 ![] bcast_S_S2000 (constant S_ .f32 0x3727C5AC#32))))
        (constant S_ .f32 0x00000000#32) reducesTo_S2000_S_d0 h_S_))

/-- The host tail run from any valuation: its result is the finishing function of the three arrays' contents there. -/
theorem tail_of (W : Valuation τ sig (Elt F)) :
    StableHlo.after hostOps1 W (Proc.devRef .tc main_v0)
      = finish (W (Proc.devRef .tc main_call0_v2_0)) (W (Proc.devRef .tc main_call0_v2_1)) (W (Proc.devRef .tc main_call0_v2_2)) := by
  after_results
  rfl

/-- The result buffer after the whole program: the finishing function of the three accumulators after the last point. -/
theorem tail_eq (c : Dev nD) :
    Pipeline.afterTail₀ cfgs (dats m) 0 (V0 m) [hostOps1] c main_v0 = finish (numArr m c) (denArr m c) (clsArr m c) := by
  unfold Pipeline.afterTail₀
  show StableHlo.after hostOps1 _ (Proc.devRef .tc main_v0) = _
  rw [tail_of]
  have e2 := (Pipeline.withArrays_arr spec0 launch0.win.arr_inj c (V0 m c) (fun w => (dats m 0 c).arrAt w (cfgs 0).N) 2).trans (final2 m c)
  have e3 := (Pipeline.withArrays_arr spec0 launch0.win.arr_inj c (V0 m c) (fun w => (dats m 0 c).arrAt w (cfgs 0).N) 3).trans (final3 m c)
  have e4 := (Pipeline.withArrays_arr spec0 launch0.win.arr_inj c (V0 m c) (fun w => (dats m 0 c).arrAt w (cfgs 0).N) 4).trans (final4 m c)
  exact congr (congr (congrArg finish e2) e3) e4

/-! ## The run of the whole program, read -/

/-- Every weakly fair execution ends with the result buffer at the finishing function of the three accumulators after the
    last point, and the two arguments unchanged. -/
theorem run : θ_run defs (onTc (τ := τ) (main (F := F))) ⟨m, fun _ => 0, ρ⟩ fun r => ∀ c : Dev nD,
      r.2.mem ((c : Thread nD τ).loc main_v0) = finish (numArr m c) (denArr m c) (clsArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

/-! ## The accumulators after the last point, over the extended reals -/

section AtIdeal

variable (mI : (ℓ : Loc nD τ sig) → Buf (Elt Ideal) ℓ)

/-- The two arguments read as anchors. -/
abbrev predA (c : Dev nD) : Fin 4096 → Fin 2000 → Fin 5 → EReal :=
  AnchorLoss.anchors (mI ((c : Thread nD τ).loc main_arg0) : S4096x10000.Idx → EReal)
abbrev targA (c : Dev nD) : Fin 4096 → Fin 2000 → Fin 5 → EReal :=
  AnchorLoss.anchors (mI ((c : Thread nD τ).loc main_arg1) : S4096x10000.Idx → EReal)

/-- The anchor at row r, column g of the tiles of point s is the anchor at row 8 s + r of the arguments. -/
theorem tileX_anchor (c : Dev nD) (s : Fin cfg0.N) (r : Fin 8) (g : Fin 2000) (hb : 8 * s.val + r.val < 4096) :
    (fun k => tileX mI c s (ix3 r g k)) = predA mI c ⟨8 * s.val + r.val, hb⟩ g :=
  funext fun k => tileX_apply mI c s r g k hb
theorem tileY_anchor (c : Dev nD) (s : Fin cfg0.N) (r : Fin 8) (g : Fin 2000) (hb : 8 * s.val + r.val < 4096) :
    (fun k => tileY mI c s (ix3 r g k)) = targA mI c ⟨8 * s.val + r.val, hb⟩ g :=
  funext fun k => tileY_apply mI c s r g k hb

/-- The numerator array: at column g, the sum over all 4096 rows of the masked box errors. -/
theorem num_last (c : Dev nD) (g : Fin 2000) :
    numArr mI c (ix2 0 g)
      = ∑ b : Fin 4096, AnchorLoss.target (targA mI c b g) * AnchorLoss.boxErr (predA mI c b g) (targA mI c b g) := by
  show (lastOuts mI c).1 (ix2 0 g) = _
  rw [lastOuts_def]
  have hN : cfg0.N = 512 := N_0
  have hrun := AnchorLoss.running_sum (N := cfg0.N)
    (fun n hn => (outsAt0 mI c n hn).1 (ix2 0 g))
    (fun s => ∑ r : Fin 8, k0_pay11 (tileX mI c s) (tileY mI c s) (ix2 r g))
    (fun h0 => by
      show (outsAt0 mI c 0 h0).1 (ix2 0 g) = _
      rw [outs_first]
      dsimp only
      rw [pay1_apply]
      show Ideal.ofBits .f32 0x00000000#32 + _ = _
      rw [Ideal.ofBits_zero_f32])
    (fun n hn => by
      show (outsAt0 mI c (n + 1) hn).1 (ix2 0 g) = _
      rw [outs_next]
      dsimp only
      rw [pay1_apply])
    511 tLast.isLt
  refine hrun.trans ?_
  rw [AnchorLoss.sum_rows_by_tiles]
  refine Finset.sum_congr rfl fun s _ => Finset.sum_congr rfl fun r _ => ?_
  have hs : s.val < cfg0.N := by have := s.isLt; omega
  have hb : 8 * s.val + r.val < 4096 := by have := s.isLt; have := r.isLt; omega
  rw [box_apply, tileX_anchor mI c ⟨s.val, hs⟩ r g hb, tileY_anchor mI c ⟨s.val, hs⟩ r g hb]

/-- The denominator array: at column g, the sum over all rows of the masks. -/
theorem den_last (c : Dev nD) (g : Fin 2000) :
    denArr mI c (ix2 0 g) = ∑ b : Fin 4096, AnchorLoss.target (targA mI c b g) := by
  show (lastOuts mI c).2.1 (ix2 0 g) = _
  rw [lastOuts_def]
  have hN : cfg0.N = 512 := N_0
  have hrun := AnchorLoss.running_sum (N := cfg0.N)
    (fun n hn => (outsAt0 mI c n hn).2.1 (ix2 0 g))
    (fun s => ∑ r : Fin 8, k0_pay9 (tileY mI c s) (ix2 r g))
    (fun h0 => by
      show (outsAt0 mI c 0 h0).2.1 (ix2 0 g) = _
      rw [outs_first]
      dsimp only
      rw [pay2_apply]
      show Ideal.ofBits .f32 0x00000000#32 + _ = _
      rw [Ideal.ofBits_zero_f32])
    (fun n hn => by
      show (outsAt0 mI c (n + 1) hn).2.1 (ix2 0 g) = _
      rw [outs_next]
      dsimp only
      rw [pay2_apply])
    511 tLast.isLt
  refine hrun.trans ?_
  rw [AnchorLoss.sum_rows_by_tiles]
  refine Finset.sum_congr rfl fun s _ => Finset.sum_congr rfl fun r _ => ?_
  have hs : s.val < cfg0.N := by have := s.isLt; omega
  have hb : 8 * s.val + r.val < 4096 := by have := s.isLt; have := r.isLt; omega
  rw [mask_apply, tileY_anchor mI c ⟨s.val, hs⟩ r g hb]

/-- The class-error array: at column g, the sum over all rows of the class errors. -/
theorem cls_last (c : Dev nD) (g : Fin 2000) :
    clsArr mI c (ix2 0 g) = ∑ b : Fin 4096, AnchorLoss.classErr (predA mI c b g) (targA mI c b g) := by
  show (lastOuts mI c).2.2 (ix2 0 g) = _
  rw [lastOuts_def]
  have hN : cfg0.N = 512 := N_0
  have hrun := AnchorLoss.running_sum (N := cfg0.N)
    (fun n hn => (outsAt0 mI c n hn).2.2 (ix2 0 g))
    (fun s => ∑ r : Fin 8, k0_pay10 (tileX mI c s) (tileY mI c s) (ix2 r g))
    (fun h0 => by
      show (outsAt0 mI c 0 h0).2.2 (ix2 0 g) = _
      rw [outs_first]
      dsimp only
      rw [pay3_apply]
      show Ideal.ofBits .f32 0x00000000#32 + _ = _
      rw [Ideal.ofBits_zero_f32])
    (fun n hn => by
      show (outsAt0 mI c (n + 1) hn).2.2 (ix2 0 g) = _
      rw [outs_next]
      dsimp only
      rw [pay3_apply])
    511 tLast.isLt
  refine hrun.trans ?_
  rw [AnchorLoss.sum_rows_by_tiles]
  refine Finset.sum_congr rfl fun s _ => Finset.sum_congr rfl fun r _ => ?_
  have hs : s.val < cfg0.N := by have := s.isLt; omega
  have hb : 8 * s.val + r.val < 4096 := by have := s.isLt; have := r.isLt; omega
  rw [cls_apply, tileX_anchor mI c ⟨s.val, hs⟩ r g hb, tileY_anchor mI c ⟨s.val, hs⟩ r g hb]

/-! ## The finishing function is the loss -/

/-- The host's total of a [2000] vector from zero, as a sum over the columns. -/
theorem total_apply (x : FVec Ideal S2000 .f32) (i : S_.Idx) :
    Host.reduceAdd x (constant S_ .f32 0x00000000#32) reducesTo_S2000_S_d0 h_S_ i
      = Ideal.ofBits .f32 0x00000000#32 + ∑ g : Fin 2000, x (ix1 g) := by
  simp only [Host.reduceAdd, Ideal.hostReduceAdd_def]
  rw [Ideal.hostReduceAdd_total reducesTo_S2000_S_d0 (fun b => b.elim0) x _ i,
    ← Equiv.sum_comp (idxEquiv1 (n := 2000)).symm x]
  rfl

/-- A [1, 2000] array reshaped to [2000], at column g. -/
theorem row_apply (v : Vec Ideal S1x2000 .f32) (g : Fin 2000) :
    shapeCast S2000 v shapeCasts_S1x2000_S2000 (ix1 g) = v (ix2 0 g) :=
  shapeCast_apply v _ (ix1 g) (ix2 0 g) (by
    rw [Shape.rowMajor_val_two, Shape.rowMajor_val_one]
    show 0 * 2000 + g.val = g.val
    omega)

/-- The finishing function over the extended reals, column by column. -/
theorem finish_apply (num den cls : Vec Ideal S1x2000 .f32) (i : S_.Idx) :
    finish num den cls i
      = Ideal.div (Ideal.ofBits .f32 0x00000000#32 + ∑ g : Fin 2000, cls (ix2 0 g)) (Ideal.ofBits .f32 0x4AFA0000#32)
        + Ideal.ofBits .f32 0x3DCCCCCD#32
          * (Ideal.ofBits .f32 0x00000000#32
            + ∑ g : Fin 2000, Ideal.div (num (ix2 0 g)) (den (ix2 0 g) + Ideal.ofBits .f32 0x3727C5AC#32)) := by
  unfold finish
  show Ideal.div (Host.reduceAdd (F := Ideal) (shapeCast S2000 cls shapeCasts_S1x2000_S2000) (constant (F := Ideal) S_ .f32 0x00000000#32) reducesTo_S2000_S_d0 h_S_ i)
      (Ideal.ofBits .f32 0x4AFA0000#32)
    + Ideal.ofBits .f32 0x3DCCCCCD#32
      * (Host.reduceAdd (F := Ideal)
          (Host.divf (F := Ideal) (shapeCast S2000 num shapeCasts_S1x2000_S2000)
            (addf (F := Ideal) (shapeCast S2000 den shapeCasts_S1x2000_S2000) (broadcastInDim S2000 ![] bcast_S_S2000 (constant (F := Ideal) S_ .f32 0x3727C5AC#32))))
          (constant (F := Ideal) S_ .f32 0x00000000#32) reducesTo_S2000_S_d0 h_S_ i) = _
  rw [total_apply, total_apply]
  refine congrArg₂ (· + ·)
    (congrArg (fun s => Ideal.div (Ideal.ofBits .f32 0x00000000#32 + s) (Ideal.ofBits .f32 0x4AFA0000#32))
      (Finset.sum_congr rfl fun g _ => row_apply cls g))
    (congrArg (fun s => Ideal.ofBits .f32 0x3DCCCCCD#32 * (Ideal.ofBits .f32 0x00000000#32 + s))
      (Finset.sum_congr rfl fun g _ => ?_))
  show Ideal.div (shapeCast S2000 num shapeCasts_S1x2000_S2000 (ix1 g))
    (shapeCast S2000 den shapeCasts_S1x2000_S2000 (ix1 g) + Ideal.ofBits .f32 0x3727C5AC#32) = _
  rw [row_apply, row_apply]

/-- The program's result over the extended reals is the loss of the two arguments read as anchors. -/
theorem finish_last (c : Dev nD) :
    finish (numArr mI c) (denArr mI c) (clsArr mI c) = fun _ => AnchorLoss.loss (predA mI c) (targA mI c) := by
  funext i
  rw [finish_apply]
  unfold AnchorLoss.loss
  simp only [num_last, den_last, cls_last]

end AtIdeal

end Cert.KernelIdeal.AnchorValue

end
-- ==== Proof.RefValue.lean ====
/-
  The reference, read as the loss.

  The reference reshapes both arguments to anchors, slices channel 0 and channels 1 to 4, and computes on whole
  [4096, 2000] arrays: the mask as the comparison's bit converted, the logistic spelled 1 / (1 + e^(-x)), the box error
  as the sum from zero of the four squared differences divided by 4, then the three sums over rows, the quotient per
  column, the sum over columns, and the final combination. Each stage is read at an index from the generated
  one-operation lemmas; the reshape's row-major arithmetic identifies entry (b, g, k) of the reshaped array with
  flat column 5 g + k of row b. The class total is taken over all (b, g) at once; as a sum over the extended reals it is
  the sum over columns of the sums over rows.
-/
import proofs.«176531_j14594298871844_1_alg».proof.Proof.Gen.ReferenceIdeal.Read
import proofs.«176531_j14594298871844_1_alg».proof.Proof.LossSpec
import Idealize.ShloMosaic.Lib.ValueIdxRank1

noncomputable section

open Idealize.ShloMosaic Idealize.ShloMosaic.TcCoe Idealize.SL.Sem
open Idealize.ShloMosaic.ValueIdx

namespace Cert.ReferenceIdeal.AnchorValue

open Cert.ReferenceIdeal Cert.ReferenceIdeal.Gen Cert.ReferenceIdeal.Read

/-! ## Where the layout operations read -/

/-- Entry (b, g, k) of a reshaped argument is the argument at row b, flat column 5 g + k. -/
theorem reshape_idx (b : Fin 4096) (g : Fin 2000) (k : Fin 5) :
    idx_main_v0 (ix3 b g k) = ix2 b ⟨5 * g.val + k.val, by omega⟩ := by
  funext a
  match a with
  | ⟨0, _⟩ => exact Fin.ext (by show ((b.val * 2000 + g.val) * 5 + k.val) / 10000 = b.val; omega)
  | ⟨1, _⟩ => exact Fin.ext (by show ((b.val * 2000 + g.val) * 5 + k.val) % 10000 = 5 * g.val + k.val; omega)

/-- Channel 0 of the anchor (b, g): the slice of channel 0 with its unit axis dropped. -/
theorem chan0_idx (b : Fin 4096) (g : Fin 2000) : idx_main_v2 (idx_main_v3 (ix2 b g)) = ix3 b g 0 := by
  funext a
  match a with
  | ⟨0, _⟩ => exact Fin.ext (by show (b.val * 2000 + g.val) / 2000 = b.val; omega)
  | ⟨1, _⟩ => exact Fin.ext (by show (b.val * 2000 + g.val) / 1 % 2000 = g.val; omega)
  | ⟨2, _⟩ => rfl

/-- Channel 1 + k of the anchor (b, g): entry k of the slice of channels 1 to 4. -/
theorem chan14_idx (b : Fin 4096) (g : Fin 2000) (k : Fin 4) :
    idx_main_v19 (idx_main_v23 (ix2 b g) k) = ix3 b g ⟨1 + k.val, by omega⟩ := by
  funext a
  match a with
  | ⟨0, _⟩ => rfl
  | ⟨1, _⟩ => rfl
  | ⟨2, _⟩ => rfl

variable (x0 x1 : (⟨S4096x10000, .f32⟩ : BufTy).Contents (Elt Ideal))

/-- The two arguments read as anchors. -/
abbrev predA : Fin 4096 → Fin 2000 → Fin 5 → EReal := AnchorLoss.anchors (x0 : S4096x10000.Idx → EReal)
abbrev targA : Fin 4096 → Fin 2000 → Fin 5 → EReal := AnchorLoss.anchors (x1 : S4096x10000.Idx → EReal)

/-! ## The stages at an anchor -/

theorem pred0_apply (b : Fin 4096) (g : Fin 2000) : val_main_v3 (F := Ideal) x0 (ix2 b g) = predA x0 b g 0 := by
  rw [val_main_v3_apply, val_main_v2_apply, val_main_v0_apply, chan0_idx, reshape_idx]

theorem targ0_apply (b : Fin 4096) (g : Fin 2000) : val_main_v5 (F := Ideal) x1 (ix2 b g) = targA x1 b g 0 := by
  rw [val_main_v5_apply, val_main_v4_apply, val_main_v1_apply]
  exact congrArg x1 ((congrArg idx_main_v0 (chan0_idx b g)).trans (reshape_idx b g 0))

/-- The mask stage is the 0/1 target of the anchor. -/
theorem mask_apply (b : Fin 4096) (g : Fin 2000) :
    val_main_v8 (F := Ideal) x1 (ix2 b g) = AnchorLoss.target (targA x1 b g) := by
  show FloatOps.uitofp (F := Ideal) .f32 (FloatOps.cmpf (F := Ideal) (φ := .f32) .ogt (val_main_v5 (F := Ideal) x1 (ix2 b g)) (val_main_v6 (F := Ideal) (ix2 b g))) = _
  rw [targ0_apply, val_main_v6_apply]
  rfl

/-- The squared class difference stage is the class error of the anchor. -/
theorem cls_apply (b : Fin 4096) (g : Fin 2000) :
    val_main_v16 (F := Ideal) x0 x1 (ix2 b g) = AnchorLoss.classErr (predA x0 b g) (targA x1 b g) := by
  show (Ideal.div (val_main_v13 (F := Ideal) (ix2 b g))
        (val_main_v11 (F := Ideal) (ix2 b g) + Ideal.exp (-(val_main_v3 (F := Ideal) x0 (ix2 b g))))
      - val_main_v8 (F := Ideal) x1 (ix2 b g))
    * (Ideal.div (val_main_v13 (F := Ideal) (ix2 b g))
        (val_main_v11 (F := Ideal) (ix2 b g) + Ideal.exp (-(val_main_v3 (F := Ideal) x0 (ix2 b g))))
      - val_main_v8 (F := Ideal) x1 (ix2 b g)) = _
  rw [val_main_v13_apply, val_main_v11_apply, pred0_apply, mask_apply]
  show (Ideal.div (Ideal.ofBits .f32 0x3F800000#32) (Ideal.ofBits .f32 0x3F800000#32 + Ideal.exp (-(predA x0 b g 0))) - _)
    * (Ideal.div (Ideal.ofBits .f32 0x3F800000#32) (Ideal.ofBits .f32 0x3F800000#32 + Ideal.exp (-(predA x0 b g 0))) - _) = _
  rw [AnchorLoss.host_logistic_eq]
  rfl

/-- The mean-of-four stage is the box error of the anchor. -/
theorem box_apply (b : Fin 4096) (g : Fin 2000) :
    val_main_v25 (F := Ideal) x0 x1 (ix2 b g) = AnchorLoss.boxErr (predA x0 b g) (targA x1 b g) := by
  show Ideal.div (val_main_v23 (F := Ideal) x0 x1 (ix2 b g)) (val_main_v24 (F := Ideal) (ix2 b g)) = _
  rw [val_main_v23_apply, val_main_v24_apply, ← AnchorLoss.mean_eq_boxErr]
  refine congrArg (fun s => Ideal.div (Ideal.ofBits .f32 0x00000000#32 + s) (Ideal.ofBits .f32 0x40800000#32))
    (Finset.sum_congr rfl fun k _ => ?_)
  show (val_main_v19 (F := Ideal) x0 (idx_main_v23 (ix2 b g) k) - val_main_v20 (F := Ideal) x1 (idx_main_v23 (ix2 b g) k))
    * (val_main_v19 (F := Ideal) x0 (idx_main_v23 (ix2 b g) k) - val_main_v20 (F := Ideal) x1 (idx_main_v23 (ix2 b g) k)) = _
  have e0 : val_main_v19 (F := Ideal) x0 (idx_main_v23 (ix2 b g) k) = predA x0 b g ⟨1 + k.val, by omega⟩ := by
    rw [val_main_v19_apply, val_main_v0_apply, chan14_idx, reshape_idx]
  have e1 : val_main_v20 (F := Ideal) x1 (idx_main_v23 (ix2 b g) k) = targA x1 b g ⟨1 + k.val, by omega⟩ := by
    rw [val_main_v20_apply, val_main_v1_apply]
    exact congrArg x1 ((congrArg idx_main_v0 (chan14_idx b g k)).trans (reshape_idx b g _))
  rw [e0, e1]

/-! ## The column sums and the result -/

/-- The numerator stage at column g. -/
theorem num_apply (g : Fin 2000) :
    val_main_v27 (F := Ideal) x0 x1 (ix1 g)
      = ∑ b : Fin 4096, AnchorLoss.target (targA x1 b g) * AnchorLoss.boxErr (predA x0 b g) (targA x1 b g) := by
  rw [val_main_v27_apply]
  show Ideal.ofBits .f32 0x00000000#32 + _ = _
  rw [Ideal.ofBits_zero_f32, zero_add]
  refine Finset.sum_congr rfl fun b _ => ?_
  have ei : idx_main_v27 (ix1 g) b = ix2 b g := funext fun a => by match a with | ⟨0, _⟩ => rfl | ⟨1, _⟩ => rfl
  rw [ei]
  show val_main_v8 (F := Ideal) x1 (ix2 b g) * val_main_v25 (F := Ideal) x0 x1 (ix2 b g) = _
  rw [mask_apply, box_apply]

/-- The denominator stage at column g, before eps is added. -/
theorem den_apply (g : Fin 2000) :
    val_main_v28 (F := Ideal) x1 (ix1 g) = ∑ b : Fin 4096, AnchorLoss.target (targA x1 b g) := by
  rw [val_main_v28_apply]
  show Ideal.ofBits .f32 0x00000000#32 + _ = _
  rw [Ideal.ofBits_zero_f32, zero_add]
  refine Finset.sum_congr rfl fun b _ => ?_
  have ei : idx_main_v28 (ix1 g) b = ix2 b g := funext fun a => by match a with | ⟨0, _⟩ => rfl | ⟨1, _⟩ => rfl
  rw [ei, mask_apply]

/-- The class total: the sum over all (b, g) at once is the sum over columns of the sums over rows. -/
theorem cls_total :
    ∑ j : S4096x2000.Idx, val_main_v16 (F := Ideal) x0 x1 j
      = ∑ g : Fin 2000, ∑ b : Fin 4096, AnchorLoss.classErr (predA x0 b g) (targA x1 b g) := by
  rw [sum_idx2 (fun j => val_main_v16 (F := Ideal) x0 x1 j), Finset.sum_comm]
  exact Finset.sum_congr rfl fun g _ => Finset.sum_congr rfl fun b _ => cls_apply x0 x1 b g

/-- One column's quotient: numerator over (denominator + eps). -/
theorem quot_apply (g : Fin 2000) :
    val_main_v31 (F := Ideal) x0 x1 (ix1 g)
      = Ideal.div (∑ b : Fin 4096, AnchorLoss.target (targA x1 b g) * AnchorLoss.boxErr (predA x0 b g) (targA x1 b g))
          ((∑ b : Fin 4096, AnchorLoss.target (targA x1 b g)) + Ideal.ofBits .f32 0x3727C5AC#32) := by
  show Ideal.div (val_main_v27 (F := Ideal) x0 x1 (ix1 g))
    (val_main_v28 (F := Ideal) x1 (ix1 g) + val_main_v29 (F := Ideal) (ix1 g)) = _
  rw [num_apply, den_apply, val_main_v29_apply, val_main_cst_8_apply, Ideal.ofBits_def]

/-- The quotient total: the sum over the rank-1 index set is the sum over the columns. -/
theorem quot_total :
    ∑ j : S2000.Idx, val_main_v31 (F := Ideal) x0 x1 j
      = ∑ g : Fin 2000, Ideal.div (∑ b : Fin 4096, AnchorLoss.target (targA x1 b g) * AnchorLoss.boxErr (predA x0 b g) (targA x1 b g))
          ((∑ b : Fin 4096, AnchorLoss.target (targA x1 b g)) + Ideal.ofBits .f32 0x3727C5AC#32) := by
  rw [← Equiv.sum_comp (idxEquiv1 (n := 2000)).symm (fun j => val_main_v31 (F := Ideal) x0 x1 j)]
  exact Finset.sum_congr rfl fun g _ => quot_apply x0 x1 g

/-- The reference's result is the loss of the two arguments read as anchors. -/
theorem result_eq : val_main_v34 (F := Ideal) x0 x1 = fun _ => AnchorLoss.loss (predA x0) (targA x1) := by
  funext i
  rw [val_main_v34_apply, val_main_v18_apply, val_main_v33_apply, val_main_v17_apply, val_main_v32_apply,
    cls_total, quot_total, val_main_cst_2_apply, val_main_cst_9_apply, val_main_cst_3_apply, val_main_cst_10_apply]
  simp only [Ideal.ofBits_def, Ideal.addf_def, Ideal.hostDivf_def, Ideal.mulf_def]
  unfold AnchorLoss.loss
  exact rfl

end Cert.ReferenceIdeal.AnchorValue

end
-- ==== Proof.lean ====
/-
  The kernel and the reference compute one loss of two [4096, 10000] arrays read as 4096 x 2000 anchors of five channels.

  Per anchor: the class target is 1 where the target's channel 0 is above zero, else 0; the class error is the squared
  difference between the logistic of the predicted channel 0 and that target; the box error is the mean of the four
  squared differences of channels 1 to 4. Per column g the masked box errors, the masks and the class errors are summed
  over the 4096 rows; the result is the class errors' total over 8192000 plus a tenth of the sum over g of
  (masked box error sum) / (mask sum + eps).

  The kernel sums the rows in 512 tiles of 8, one tile per grid point, into three accumulators reset at the first
  point; the host finishes. The reference sums all rows at once, and the class errors over rows and columns at once.
  Over the extended reals the two agree term by term: the kernel's quarter of the four squares' sum is the reference's
  sum from zero divided by the real 4; the kernel's logistic is the reference's 1 / (1 + e^(-x)); the comparison's bit
  widened and converted signed is the bit converted unsigned; and a sum is the same however it is grouped, addition on
  the extended reals being commutative and associative, so the precondition is not used by the value claim. The
  idealized kernel is the kernel's own text (no rewrite was applied), so that conjunct is trivial.
-/
import proofs.«176531_j14594298871844_1_alg».proof.Defs
import proofs.«176531_j14594298871844_1_alg».proof.Proof.Gen.Kernel
import proofs.«176531_j14594298871844_1_alg».proof.Proof.Gen.Kernel.Frame
import proofs.«176531_j14594298871844_1_alg».proof.Proof.Gen.KernelIdeal
import proofs.«176531_j14594298871844_1_alg».proof.Proof.Gen.KernelIdeal.Frame
import proofs.«176531_j14594298871844_1_alg».proof.Proof.Gen.ReferenceIdeal
import proofs.«176531_j14594298871844_1_alg».proof.Proof.Gen.ReferenceIdeal.Run
import proofs.«176531_j14594298871844_1_alg».proof.Proof.Gen.ReferenceIdeal.Read
import proofs.«176531_j14594298871844_1_alg».proof.Proof.Gen.Pre_finite_inputs
import proofs.«176531_j14594298871844_1_alg».proof.Proof.KernelSums
import proofs.«176531_j14594298871844_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the loss of their (agreeing) arguments read as anchors. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.AnchorValue.finish (Cert.KernelIdeal.AnchorValue.numArr m c)
      (Cert.KernelIdeal.AnchorValue.denArr m c) (Cert.KernelIdeal.AnchorValue.clsArr m c),
    Cert.KernelIdeal.AnchorValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq _ _).trans ?_
  rw [Cert.ReferenceIdeal.AnchorValue.result_eq, (hagree c).1, (hagree c).2]
  exact (Cert.KernelIdeal.AnchorValue.finish_last m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
